-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x128 .f32) (main_arg6 : FVec F S64 .f32) (main_arg7 : FVec F S64x128 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x1000000 32) (main_arg2 : FVec F S1000000x64 .f32) (main_arg3 : FVec F S64x64 .f32) (main_arg4 : FVec F S64 .f32) (main_arg5 : FVec F S64x128 .f32) (main_arg6 : FVec F S64 .f32) (main_arg7 : FVec F S64x128 .f32) (main_arg8 : FVec F S64 .f32) (main_arg9 : FVec F S64x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S4000x64 : Shape := ⟨2, ![4000, 64]⟩

abbrev nBuf : Space → Nat
  | .hbm => 40
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  broadcasts_S1x64_S4000x64 : S1x64.Broadcasts S4000x64
  shapeCasts_S4000x64_S4000x64 : S4000x64.ShapeCasts S4000x64
  dot_S5000x128_S128x64_S5000x64_1_0_0_1_n_n_wf : DotDims.WF S5000x128 S128x64 S5000x64 [1] [0] [0] [1] [] []
  gather_S50000x64_S1000000x1_S1000000x64_1_0_n_n_0_1_164_wf : GatherDims.WF S50000x64 S1000000x1 S1000000x64 [1] [0] [] [0] [] 1 ![1, 64]
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1000000x64.size a
  hwx1_0 : ∀ i : grid1.Coords, EltTy.bits .f32 = 32 ∨ (Rect.block (s := S1000000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1000000x64.size a
  hwx1_1 : ∀ i : grid1.Coords, EltTy.bits .f32 = 32 ∨ (Rect.block (s := S1000000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S1000000x64.size a
  hwx1_7 : ∀ i : grid1.Coords, EltTy.bits .f32 = 32 ∨ (Rect.block (s := S1000000x64) S4000x64.size (cc1_transform_7 i) (hinb1_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1000000 : Shape := ⟨2, ![2, 1000000]⟩
abbrev S1000000x64 : Shape := ⟨2, ![1000000, 64]⟩
abbrev S64x64 : Shape := ⟨2, ![64, 64]⟩
abbrev S64 : Shape := ⟨1, ![64]⟩
abbrev S64x128 : Shape := ⟨2, ![64, 128]⟩
abbrev S128x64 : Shape := ⟨2, ![128, 64]⟩
abbrev S50000x64 : Shape := ⟨2, ![50000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S128x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S128x64, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S64x64, .f32⟩
  | .hbm, ⟨22, _⟩ => ⟨S1000000x64, .f32⟩
  | .hbm, ⟨23, _⟩ => ⟨S1x64, .f32⟩
  | .hbm, ⟨24, _⟩ => ⟨S1000000x64, .f32⟩
  | .hbm, ⟨25, _⟩ => ⟨S1000000x64, .f32⟩
  | .hbm, ⟨26, _⟩ => ⟨S1x1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S1000000x64, .f32⟩
  | .hbm, ⟨38, _⟩ => ⟨S1x1000000, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S_, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S64x64, .f32⟩
  | .hbm, ⟨68, _⟩ => ⟨S1000000x64, .f32⟩
  | .hbm, ⟨69, _⟩ => ⟨S1x64, .f32⟩
  | .hbm, ⟨70, _⟩ => ⟨S1000000x64, .f32⟩
  | .hbm, ⟨71, _⟩ => ⟨S1000000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  bcast_S1x64_S1000000x64_0_1 : S1x64.BroadcastsInDim S1000000x64 (![0, 1] : Fin 2 → Fin S1000000x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S1000000x64 : S_.BroadcastsInDim S1000000x64 (![] : Fin 0 → Fin S1000000x64.rank)
  dot_S50000x128_S128x64_S50000x64_1_0_0_1_n_n_wf : DotDims.WF S50000x128 S128x64 S50000x64 [1] [0] [0] [1] [] []
  dot_S1000000x64_S64x64_S1000000x64_1_0_0_1_n_n_wf : DotDims.WF S1000000x64 S64x64 S1000000x64 [1] [0] [0] [1] [] []
  gather_S50000x64_S1000000x1_S1000000x64_1_0_n_n_0_1_164_wf : GatherDims.WF S50000x64 S1000000x1 S1000000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Spec.lean ====
/-
  The mathematics of the edge update, as functions of extended-real arrays read index by index.

  A linear layer takes a matrix x of shape [a, k], a weight W of shape [n, k] (one ROW of W per output feature) and a
  bias b of length n to the matrix whose entry (p, q) is  ∑ κ < k, x (p, κ) · W (q, κ) + b q.
  The activation is the tanh form of the Gaussian error linear unit,
    v ↦ v · (½ · (1 + tanh (c₂ · (v + c₁ · (v · (v · v)))))),
  with c₁, c₂, ½ and 1 the four float words both programs print; a word that is the same on both sides is never
  evaluated, it is carried as the extended real it denotes.
  The edge update is:  out = lin (act (lin ea We be + s + t)) W1 b1,  where s and t are the two gathered node
  projections, given here as whole arrays.
-/
import Idealize.ShloMosaic.Lib.ValueIdx
import Idealize.ShloMosaic.PureOps.Ideal

noncomputable section

namespace Cert.EdgeSpec

open Idealize.ShloMosaic Idealize.ShloMosaic.ValueIdx

/-- A linear layer with the bias given as a vector of length n. -/
def lin {a k n : ℕ} (x : (⟨2, ![a, k]⟩ : Shape).Idx → EReal) (W : (⟨2, ![n, k]⟩ : Shape).Idx → EReal)
    (b : (⟨1, ![n]⟩ : Shape).Idx → EReal) : (⟨2, ![a, n]⟩ : Shape).Idx → EReal :=
  fun i => (∑ κ : Fin k, x (ix2 (i 0) κ) * W (ix2 (i 1) κ)) + b (ix1 (i 1))

theorem lin_apply {a k n : ℕ} (x : (⟨2, ![a, k]⟩ : Shape).Idx → EReal) (W : (⟨2, ![n, k]⟩ : Shape).Idx → EReal)
    (b : (⟨1, ![n]⟩ : Shape).Idx → EReal) (p : Fin a) (q : Fin n) :
    lin x W b (ix2 p q) = (∑ κ : Fin k, x (ix2 p κ) * W (ix2 q κ)) + b (ix1 q) := rfl

/-- A bias kept as a [1, n] row, read as a vector of length n. -/
def rowOf {n : ℕ} (b2 : (⟨2, ![1, n]⟩ : Shape).Idx → EReal) : (⟨1, ![n]⟩ : Shape).Idx → EReal :=
  fun j => b2 (ix2 (0 : Fin 1) (j 0 : Fin n))

theorem rowOf_apply {n : ℕ} (b2 : (⟨2, ![1, n]⟩ : Shape).Idx → EReal) (q : Fin n) : rowOf b2 (ix1 q) = b2 (ix2 (0 : Fin 1) q) := rfl

/-- The tanh form of the Gaussian error linear unit, over the four printed float words. -/
def act (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

/-- The same with the cube associated the other way: the product of extended reals is commutative. -/
theorem act_cube_left (v : EReal) :
    v * (Ideal.ofBits .f32 0x3F000000#32 * (Ideal.ofBits .f32 0x3F800000#32
      + Ideal.tanh (Ideal.ofBits .f32 0x3F4C422A#32 * (v + Ideal.ofBits .f32 0x3D372713#32 * (v * v * v))))) = act v := by
  unfold act; rw [mul_comm (v * v) v]

/-- What the edge layer feeds its activation: the edge features through their linear layer, plus the two gathered
    node projections. -/
def pre {e k n : ℕ} (ea : (⟨2, ![e, k]⟩ : Shape).Idx → EReal) (s t : (⟨2, ![e, n]⟩ : Shape).Idx → EReal)
    (We : (⟨2, ![n, k]⟩ : Shape).Idx → EReal) (be : (⟨1, ![n]⟩ : Shape).Idx → EReal) : (⟨2, ![e, n]⟩ : Shape).Idx → EReal :=
  fun i => lin ea We be i + s i + t i

/-- The edge update. -/
def edge {e k n o : ℕ} (ea : (⟨2, ![e, k]⟩ : Shape).Idx → EReal) (s t : (⟨2, ![e, n]⟩ : Shape).Idx → EReal)
    (We : (⟨2, ![n, k]⟩ : Shape).Idx → EReal) (be : (⟨1, ![n]⟩ : Shape).Idx → EReal)
    (W1 : (⟨2, ![o, n]⟩ : Shape).Idx → EReal) (b1 : (⟨1, ![o]⟩ : Shape).Idx → EReal) : (⟨2, ![e, o]⟩ : Shape).Idx → EReal :=
  lin (fun i => act (pre ea s t We be i)) W1 b1

end Cert.EdgeSpec

end
-- ==== Proof.KernelPay.lean ====
/-
  The two kernel bodies' stored values read at an entry, at the exact values.

  The node-projection body stores, for each of its two weights, the product of its block of x with the TRANSPOSED
  weight, into a zero accumulator, plus the bias row broadcast down the block: entry (p, q) is
    ∑ κ < 128, x (p, κ) · W (q, κ) + b (0, q).
  The edge body stores  ∑ κ < 64, act (h (p, κ)) · W1 (q, κ) + b1 (0, q)  where
    h (p, κ) = ∑ l < 64, ea (p, l) · We (κ, l) + be (0, κ) + s (p, κ) + t (p, κ).
  A change of float format is the identity at the exact values, so the bf16 casts vanish.
-/
import proofs.«171451_j81973745812097_1_alg».proof.Proof.Gen.KernelIdeal.Skeleton
import proofs.«171451_j81973745812097_1_alg».proof.Proof.LibPlainDot
import proofs.«171451_j81973745812097_1_alg».proof.Proof.Spec
import Idealize.ShloMosaic.Lib.ValueLayout
import Idealize.ShloMosaic.Lib.Pipeline.Value

noncomputable section

namespace Cert.KernelIdeal.Pay

open Cert.KernelIdeal Cert.KernelIdeal.Gen Cert.EdgeSpec
open Idealize.ShloMosaic Idealize.ShloMosaic.ValueIdx

theorem plain_proj : Cert.PlainDot.Plain dot_S5000x128_S128x64_S5000x64_1_0_0_1_n_n := ⟨rfl, rfl, rfl, rfl, rfl, rfl⟩
theorem plain_edge : Cert.PlainDot.Plain dot_S4000x64_S64x64_S4000x64_1_0_0_1_n_n := ⟨rfl, rfl, rfl, rfl, rfl, rfl⟩

/-- A block of x against a transposed [64, 128] weight, plus the bias row: the value both projection stores have. -/
theorem proj_entry (x0 : FVec Ideal S5000x128 .f32) (x1 : FVec Ideal S64x128 .f32) (x2 : FVec Ideal S1x64 .f32) (p : Fin 5000) (q : Fin 64) :
    addf (matmul dot_S5000x128_S128x64_S5000x64_1_0_0_1_n_n none (truncf .bf16 x0 bitsLt_bf16_f32 : FVec Ideal S5000x128 .bf16)
        (transpose S128x64 [1, 0] (truncf .bf16 x1 bitsLt_bf16_f32 : FVec Ideal S64x128 .bf16) transposes_S64x128_p1_0_S128x64)
        (constant S5000x64 .f32 0x00000000#32))
      (broadcastTo S5000x64 (shapeCast S1x64 x2 shapeCasts_S1x64_S1x64) broadcasts_S1x64_S5000x64) (ix2 p q)
    = (∑ κ : Fin 128, x0 (ix2 p κ) * x1 (ix2 q κ)) + x2 (ix2 (0 : Fin 1) q) := by
  refine (addf_apply _ _ _).trans ?_
  refine congrArg₂ (· + ·) ?_ ?_
  · refine (Cert.PlainDot.matmul_zero_apply plain_proj rfl rfl none _ _ p q).trans ?_
    refine Finset.sum_congr rfl fun κ _ => ?_
    refine congrArg₂ (· * ·) rfl ?_
    exact transpose_ix2_apply _ _ κ q
  · refine (broadcastTo_1b_ab_apply _ _ p q).trans ?_
    rw [shapeCast_self]

/-- The first projection's stored value at an entry. -/
theorem pay2_apply (x0 : Vec Ideal S5000x128 .f32) (x1 : Vec Ideal S64x128 .f32) (x2 : Vec Ideal S1x64 .f32) (p : Fin 5000) (q : Fin 64) :
    k0_pay2 (F := Ideal) x0 x1 x2 (ix2 p q) = (∑ κ : Fin 128, x0 (ix2 p κ) * x1 (ix2 q κ)) + x2 (ix2 (0 : Fin 1) q) :=
  proj_entry x0 x1 x2 p q

/-- The second projection's stored value at an entry. -/
theorem pay3_apply (x0 : Vec Ideal S5000x128 .f32) (x1 : Vec Ideal S64x128 .f32) (x2 : Vec Ideal S1x64 .f32) (p : Fin 5000) (q : Fin 64) :
    k0_pay3 (F := Ideal) x0 x1 x2 (ix2 p q) = (∑ κ : Fin 128, x0 (ix2 p κ) * x1 (ix2 q κ)) + x2 (ix2 (0 : Fin 1) q) :=
  proj_entry x0 x1 x2 p q

/-- A [4000, 64] block against a transposed [64, 64] weight, plus the bias row: the value both products of the edge body have. -/
theorem edge_entry (h : FVec Ideal S4000x64 .bf16) (w : FVec Ideal S64x64 .f32) (b : FVec Ideal S1x64 .f32) (p : Fin 4000) (q : Fin 64) :
    addf (matmul dot_S4000x64_S64x64_S4000x64_1_0_0_1_n_n none h
        (transpose S64x64 [1, 0] (truncf .bf16 w bitsLt_bf16_f32 : FVec Ideal S64x64 .bf16) transposes_S64x64_p1_0_S64x64)
        (constant S4000x64 .f32 0x00000000#32))
      (broadcastTo S4000x64 (shapeCast S1x64 b shapeCasts_S1x64_S1x64) broadcasts_S1x64_S4000x64) (ix2 p q)
    = (∑ κ : Fin 64, h (ix2 p κ) * w (ix2 q κ)) + b (ix2 (0 : Fin 1) q) := by
  refine (addf_apply _ _ _).trans ?_
  refine congrArg₂ (· + ·) ?_ ?_
  · refine (Cert.PlainDot.matmul_zero_apply plain_edge rfl rfl none _ _ p q).trans ?_
    refine Finset.sum_congr rfl fun κ _ => ?_
    refine congrArg₂ (· * ·) rfl ?_
    exact transpose_ix2_apply _ _ κ q
  · refine (broadcastTo_1b_ab_apply _ _ p q).trans ?_
    rw [shapeCast_self]

/-- What the edge body feeds its activation, at an entry. -/
theorem edge_pre_entry (x0 : FVec Ideal S4000x64 .f32) (x3 : FVec Ideal S64x64 .f32) (x4 : FVec Ideal S1x64 .f32)
    (x1 x2 : FVec Ideal S4000x64 .f32) (p : Fin 4000) (κ : Fin 64) :
    addf (addf (addf (matmul dot_S4000x64_S64x64_S4000x64_1_0_0_1_n_n none (truncf .bf16 x0 bitsLt_bf16_f32 : FVec Ideal S4000x64 .bf16)
        (transpose S64x64 [1, 0] (truncf .bf16 x3 bitsLt_bf16_f32 : FVec Ideal S64x64 .bf16) transposes_S64x64_p1_0_S64x64)
        (constant S4000x64 .f32 0x00000000#32))
      (broadcastTo S4000x64 (shapeCast S1x64 x4 shapeCasts_S1x64_S1x64) broadcasts_S1x64_S4000x64))
      (shapeCast S4000x64 x1 shapeCasts_S4000x64_S4000x64)) (shapeCast S4000x64 x2 shapeCasts_S4000x64_S4000x64) (ix2 p κ)
    = (∑ l : Fin 64, x0 (ix2 p l) * x3 (ix2 κ l)) + x4 (ix2 (0 : Fin 1) κ) + x1 (ix2 p κ) + x2 (ix2 p κ) := by
  refine (addf_apply _ _ _).trans ?_
  refine congrArg₂ (· + ·) ?_ (by rw [shapeCast_self])
  refine (addf_apply _ _ _).trans ?_
  refine congrArg₂ (· + ·) ?_ (by rw [shapeCast_self])
  exact edge_entry _ x3 x4 p κ

/-- The edge body's stored value at an entry. -/
theorem pay1_apply (x0 : Vec Ideal S4000x64 .f32) (x3 : Vec Ideal S64x64 .f32) (x4 : Vec Ideal S1x64 .f32)
    (x1 x2 : Vec Ideal S4000x64 .f32) (x5 : Vec Ideal S64x64 .f32) (x6 : Vec Ideal S1x64 .f32) (p : Fin 4000) (q : Fin 64) :
    k1_pay1 (F := Ideal) x0 x3 x4 x1 x2 x5 x6 (ix2 p q)
      = (∑ κ : Fin 64, act ((∑ l : Fin 64, x0 (ix2 p l) * x3 (ix2 κ l)) + x4 (ix2 (0 : Fin 1) κ) + x1 (ix2 p κ) + x2 (ix2 p κ))
          * x5 (ix2 q κ)) + x6 (ix2 (0 : Fin 1) q) := by
  unfold k1_pay1
  refine (edge_entry _ x5 x6 p q).trans ?_
  refine congrArg₂ (· + ·) (Finset.sum_congr rfl fun κ _ => congrArg₂ (· * ·) ?_ rfl) rfl
  rw [← edge_pre_entry x0 x3 x4 x1 x2 p κ]
  rfl

end Cert.KernelIdeal.Pay

end
-- ==== Proof.Region0Value.lean ====
/-
  What the node-projection region leaves in its two result arrays, as whole-array functions of the arrays it finds.

  The grid has ten points; point t reads rows 5000·t … 5000·t + 4999 of x (all 128 columns), the two weights and the two
  bias rows whole, and writes rows 5000·t … 5000·t + 4999 of each result. Entry (p, q) of a written block is the linear
  layer's value at row 5000·t + p, so every block is the restriction of ONE function of the whole arrays, and the ten blocks
  cover the 50000 rows: each result array ends holding that function.
-/
import proofs.«171451_j81973745812097_1_alg».proof.Proof.Gen.KernelIdeal.Frame
import proofs.«171451_j81973745812097_1_alg».proof.Proof.KernelPay

set_option maxRecDepth 16384

noncomputable section

namespace Cert.KernelIdeal.Region0

open Cert.KernelIdeal Cert.KernelIdeal.Gen Cert.KernelIdeal.Pay Cert.EdgeSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: x and the results move down one block of rows per point, the weights
    and bias rows stay. -/
theorem idx_facts : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's block of x is rows 5000·t … of x. -/
theorem xblk_apply (c : Dev nD) (t : Fin cfg0.N) (p : Fin 5000) (κ : Fin 128) (hp : t.val * 5000 + p.val < 50000) :
    (iblk0 V c 0 t : Vec Ideal S5000x128 .f32) (ix2 p κ)
      = (V c main_arg0 : S50000x128.Idx → EReal) (ix2 ⟨t.val * 5000 + p.val, hp⟩ κ) := by
  obtain ⟨-, e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * κ.val = κ.val; rw [e1]; omega

/-- A window whose one block is its whole array reads the array. -/
theorem w1_eq (c : Dev nD) (t : Fin cfg0.N) : (iblk0 V c 1 t : Vec Ideal S64x128 .f32) = (V c main_arg5 : S64x128.Idx → EReal) := by
  obtain ⟨-, -, -, e0, e1, -⟩ := idx_facts t
  funext y
  unfold iblk0
  rw [View.read_apply]
  show V c main_arg5 _ = V c main_arg5 _
  refine congrArg (V c main_arg5) (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

theorem w2_eq (c : Dev nD) (t : Fin cfg0.N) : (iblk0 V c 2 t : Vec Ideal S1x64 .f32) = (V c main_v0 : S1x64.Idx → EReal) := by
  obtain ⟨-, -, -, -, -, e0, e1, -⟩ := idx_facts t
  funext y
  unfold iblk0
  rw [View.read_apply]
  show V c main_v0 _ = V c main_v0 _
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem w3_eq (c : Dev nD) (t : Fin cfg0.N) : (iblk0 V c 3 t : Vec Ideal S64x128 .f32) = (V c main_arg7 : S64x128.Idx → EReal) := by
  obtain ⟨-, -, -, -, -, -, -, e0, e1, -⟩ := idx_facts t
  funext y
  unfold iblk0
  rw [View.read_apply]
  show V c main_arg7 _ = V c main_arg7 _
  refine congrArg (V c main_arg7) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

theorem w4_eq (c : Dev nD) (t : Fin cfg0.N) : (iblk0 V c 4 t : Vec Ideal S1x64 .f32) = (V c main_v1 : S1x64.Idx → EReal) := by
  obtain ⟨-, -, -, -, -, -, -, -, -, e0, e1, -⟩ := idx_facts t
  funext y
  unfold iblk0
  rw [View.read_apply]
  show V c main_v1 _ = V c main_v1 _
  refine congrArg (V c main_v1) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- A stored block is the restriction of the linear layer over the whole arrays to the block's rows: stated over
    variables, the block of x given by its rows. -/
theorem block_proj (X : S50000x128.Idx → EReal) (W : S64x128.Idx → EReal) (B : S1x64.Idx → EReal) (r : ℕ)
    (x0 : Vec Ideal S5000x128 .f32)
    (h0 : ∀ (p : Fin 5000) (κ : Fin 128) (hp : r * 5000 + p.val < 50000), x0 (ix2 p κ) = X (ix2 ⟨r * 5000 + p.val, hp⟩ κ))
    (v : Vec Ideal S5000x64 .f32)
    (hv : ∀ (p : Fin 5000) (q : Fin 64), v (ix2 p q) = (∑ κ : Fin 128, x0 (ix2 p κ) * W (ix2 q κ)) + B (ix2 (0 : Fin 1) q))
    (j : S5000x64.Idx) (i : S50000x64.Idx) (hi0 : (i 0).val = r * 5000 + (j 0).val) (hi1 : (i 1).val = (j 1).val) :
    v j = lin X W (rowOf B) i := by
  obtain ⟨p, q, rfl⟩ : ∃ (p : Fin 5000) (q : Fin 64), j = ix2 p q := ⟨j 0, j 1, eq_ix2 j⟩
  obtain ⟨p', q', rfl⟩ : ∃ (p' : Fin 50000) (q' : Fin 64), i = ix2 p' q' := ⟨i 0, i 1, eq_ix2 i⟩
  have hp' : p'.val = r * 5000 + p.val := hi0
  have hq' : q' = q := Fin.ext hi1
  subst hq'
  have hlt : r * 5000 + p.val < 50000 := hp' ▸ p'.isLt
  obtain rfl : p' = ⟨r * 5000 + p.val, hlt⟩ := Fin.ext hp'
  rw [hv, lin_apply]
  refine congrArg₂ (· + ·) (Finset.sum_congr rfl fun κ _ => ?_) rfl
  rw [h0 p κ hlt]

/-- What point t writes back to result 0 is block t of the linear layer over the arrays the region finds. -/
theorem flushed5_eq (c : Dev nD) (t : Fin cfg0.N) :
    (dat0 V c).flushed 5 t
      = ((cfg0.win 5).blk t).view.read (Elt Ideal) (lin (V c main_arg0 : S50000x128.Idx → EReal) (V c main_arg5 : S64x128.Idx → EReal) (rowOf (V c main_v0 : S1x64.Idx → EReal))) := by
  obtain ⟨hN, -, -, -, -, -, -, -, -, -, -, e50, e51, e60, e61⟩ := idx_facts t
  show (cfg0.win 5).cut (grid0.coords t) ((dat0 V c).after 5 t) = _
  rw [after0_5]
  unfold out0_5
  rw [View.canon_unit_zero hz]
  simp only [View.ld_unit_zero (S := S5000x128) hz, View.ld_unit_zero (S := S64x128) hz, View.ld_unit_zero (S := S1x64) hz]
  funext j
  refine block_proj (V c main_arg0) (V c main_arg5) (V c main_v0) t.val (iblk0 V c 0 t) (fun p κ hp => xblk_apply V c t p κ hp)
    (k0_pay2 (F := Ideal) (iblk0 V c 0 t) (iblk0 V c 1 t) (iblk0 V c 2 t))
    (fun p q => by rw [pay2_apply, w1_eq, w2_eq]) j (((cfg0.win 5).blk t).view.emb j) ?_ ?_
  · show win0_5.index t (0 : Fin 2) * 5000 + 1 * (j 0).val = t.val * 5000 + (j 0).val
    rw [e50]; omega
  · show win0_5.index t (1 : Fin 2) * 64 + 1 * (j 1).val = (j 1).val
    rw [e51]; omega

/-- An index of the result array is in point t's block iff each coordinate is in the block's range. -/
theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v4_0).slice (win0_5.rect t)).set ↔ _
  rw [View.set_slice_whole, Rect.mem_set_unit]
  exact Iff.rfl

/-- The ten blocks cover the result array: row r is in the block of point r / 5000. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 5000, by show (i 0).val / 5000 < 10; omega⟩
  obtain ⟨-, -, -, -, -, -, -, -, -, -, -, e50, e51, e60, e61⟩ := idx_facts t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 64 ≤ (i 1).val ∧ (i 1).val < win0_5.index t (1 : Fin 2) * 64 + 64; rw [e51]; omega

/-- Result 0 after the region: the linear layer over the arrays the region finds. -/
theorem final5 (c : Dev nD) :
    (dat0 V c).arrAt 5 cfg0.N = lin (V c main_arg0 : S50000x128.Idx → EReal) (V c main_arg5 : S64x128.Idx → EReal) (rowOf (V c main_v0 : S1x64.Idx → EReal)) :=
  (dat0 V c).arrAt_eq_of_cover 5 _ (fun t _ => flushed5_eq V c t) cover5

/-- What point t writes back to result 1 is block t of the linear layer over the arrays the region finds. -/
theorem flushed6_eq (c : Dev nD) (t : Fin cfg0.N) :
    (dat0 V c).flushed 6 t
      = ((cfg0.win 6).blk t).view.read (Elt Ideal) (lin (V c main_arg0 : S50000x128.Idx → EReal) (V c main_arg7 : S64x128.Idx → EReal) (rowOf (V c main_v1 : S1x64.Idx → EReal))) := by
  obtain ⟨hN, -, -, -, -, -, -, -, -, -, -, e50, e51, e60, e61⟩ := idx_facts t
  show (cfg0.win 6).cut (grid0.coords t) ((dat0 V c).after 6 t) = _
  rw [after0_6]
  unfold out0_6
  rw [View.canon_unit_zero hz]
  simp only [View.ld_unit_zero (S := S5000x128) hz, View.ld_unit_zero (S := S64x128) hz, View.ld_unit_zero (S := S1x64) hz]
  funext j
  refine block_proj (V c main_arg0) (V c main_arg7) (V c main_v1) t.val (iblk0 V c 0 t) (fun p κ hp => xblk_apply V c t p κ hp)
    (k0_pay3 (F := Ideal) (iblk0 V c 0 t) (iblk0 V c 3 t) (iblk0 V c 4 t))
    (fun p q => by rw [pay3_apply, w3_eq, w4_eq]) j (((cfg0.win 6).blk t).view.emb j) ?_ ?_
  · show win0_6.index t (0 : Fin 2) * 5000 + 1 * (j 0).val = t.val * 5000 + (j 0).val
    rw [e60]; omega
  · show win0_6.index t (1 : Fin 2) * 64 + 1 * (j 1).val = (j 1).val
    rw [e61]; omega

/-- An index of the result array is in point t's block iff each coordinate is in the block's range. -/
theorem mem_blk6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v4_1).slice (win0_6.rect t)).set ↔ _
  rw [View.set_slice_whole, Rect.mem_set_unit]
  exact Iff.rfl

/-- The ten blocks cover the result array: row r is in the block of point r / 5000. -/
theorem cover6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  let t : Fin cfg0.N := ⟨(i 0).val / 5000, by show (i 0).val / 5000 < 10; omega⟩
  obtain ⟨-, -, -, -, -, -, -, -, -, -, -, e50, e51, e60, e61⟩ := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e60, ht]; omega
  | ⟨1, _⟩ => show win0_6.index t (1 : Fin 2) * 64 ≤ (i 1).val ∧ (i 1).val < win0_6.index t (1 : Fin 2) * 64 + 64; rw [e61]; omega

/-- Result 1 after the region: the linear layer over the arrays the region finds. -/
theorem final6 (c : Dev nD) :
    (dat0 V c).arrAt 6 cfg0.N = lin (V c main_arg0 : S50000x128.Idx → EReal) (V c main_arg7 : S64x128.Idx → EReal) (rowOf (V c main_v1 : S1x64.Idx → EReal)) :=
  (dat0 V c).arrAt_eq_of_cover 6 _ (fun t _ => flushed6_eq V c t) cover6

end Cert.KernelIdeal.Region0

end
-- ==== Proof.Region1Value.lean ====
/-
  What the edge region leaves in its result array, as a whole-array function of the arrays it finds.

  The grid has 250 points; point t reads rows 4000·t … 4000·t + 3999 of the edge features and of the two gathered node
  projections, the two weights and the two bias rows whole, and writes rows 4000·t … 4000·t + 3999 of the result. Entry
  (p, q) of a written block is the edge update's value at row 4000·t + p, which depends on that row alone, so every block is
  the restriction of ONE function of the whole arrays, and the 250 blocks cover the 1000000 rows.
-/
import proofs.«171451_j81973745812097_1_alg».proof.Proof.Gen.KernelIdeal.Frame
import proofs.«171451_j81973745812097_1_alg».proof.Proof.KernelPay

set_option maxRecDepth 16384

noncomputable section

namespace Cert.KernelIdeal.Region1

open Cert.KernelIdeal Cert.KernelIdeal.Gen Cert.KernelIdeal.Pay Cert.EdgeSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 250 points: the edge features, the two gathered projections and the result move down
    one block of rows per point, the weights and bias rows stay. -/
theorem idx_facts : ∀ t : Fin cfg1.N, t.val < 250
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point t's block of window 0 is rows 4000·t … of its array. -/
theorem ea_apply (c : Dev nD) (t : Fin cfg1.N) (p : Fin 4000) (κ : Fin 64) (hp : t.val * 4000 + p.val < 1000000) :
    (iblk1 V c 0 t : Vec Ideal S4000x64 .f32) (ix2 p κ)
      = (V c main_arg2 : S1000000x64.Idx → EReal) (ix2 ⟨t.val * 4000 + p.val, hp⟩ κ) := by
  have e0 := (idx_facts t).2.1
  have e1 := (idx_facts t).2.2.1
  unfold iblk1
  rw [View.read_apply]
  show V c main_arg2 _ = V c main_arg2 _
  refine congrArg (V c main_arg2) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 64 + 1 * κ.val = κ.val; rw [e1]; omega

/-- Point t's block of window 1 is rows 4000·t … of its array. -/
theorem s_apply (c : Dev nD) (t : Fin cfg1.N) (p : Fin 4000) (κ : Fin 64) (hp : t.val * 4000 + p.val < 1000000) :
    (iblk1 V c 1 t : Vec Ideal S4000x64 .f32) (ix2 p κ)
      = (V c main_v15 : S1000000x64.Idx → EReal) (ix2 ⟨t.val * 4000 + p.val, hp⟩ κ) := by
  have e0 := (idx_facts t).2.2.2.1
  have e1 := (idx_facts t).2.2.2.2.1
  unfold iblk1
  rw [View.read_apply]
  show V c main_v15 _ = V c main_v15 _
  refine congrArg (V c main_v15) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 64 + 1 * κ.val = κ.val; rw [e1]; omega

/-- Point t's block of window 2 is rows 4000·t … of its array. -/
theorem t_apply (c : Dev nD) (t : Fin cfg1.N) (p : Fin 4000) (κ : Fin 64) (hp : t.val * 4000 + p.val < 1000000) :
    (iblk1 V c 2 t : Vec Ideal S4000x64 .f32) (ix2 p κ)
      = (V c main_v22 : S1000000x64.Idx → EReal) (ix2 ⟨t.val * 4000 + p.val, hp⟩ κ) := by
  have e0 := (idx_facts t).2.2.2.2.2.1
  have e1 := (idx_facts t).2.2.2.2.2.2.1
  unfold iblk1
  rw [View.read_apply]
  show V c main_v22 _ = V c main_v22 _
  refine congrArg (V c main_v22) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 64 + 1 * κ.val = κ.val; rw [e1]; omega

theorem w3_eq (c : Dev nD) (t : Fin cfg1.N) : (iblk1 V c 3 t : Vec Ideal S64x64 .f32) = (V c main_arg3 : S64x64.Idx → EReal) := by
  have e0 := (idx_facts t).2.2.2.2.2.2.2.1
  have e1 := (idx_facts t).2.2.2.2.2.2.2.2.1
  funext y
  unfold iblk1
  rw [View.read_apply]
  show V c main_arg3 _ = V c main_arg3 _
  refine congrArg (V c main_arg3) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem w4_eq (c : Dev nD) (t : Fin cfg1.N) : (iblk1 V c 4 t : Vec Ideal S1x64 .f32) = (V c main_v2 : S1x64.Idx → EReal) := by
  have e0 := (idx_facts t).2.2.2.2.2.2.2.2.2.1
  have e1 := (idx_facts t).2.2.2.2.2.2.2.2.2.2.1
  funext y
  unfold iblk1
  rw [View.read_apply]
  show V c main_v2 _ = V c main_v2 _
  refine congrArg (V c main_v2) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

theorem w5_eq (c : Dev nD) (t : Fin cfg1.N) : (iblk1 V c 5 t : Vec Ideal S64x64 .f32) = (V c main_arg9 : S64x64.Idx → EReal) := by
  have e0 := (idx_facts t).2.2.2.2.2.2.2.2.2.2.2.1
  have e1 := (idx_facts t).2.2.2.2.2.2.2.2.2.2.2.2.1
  funext y
  unfold iblk1
  rw [View.read_apply]
  show V c main_arg9 _ = V c main_arg9 _
  refine congrArg (V c main_arg9) (funext fun a => Fin.ext ?_)
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

theorem w6_eq (c : Dev nD) (t : Fin cfg1.N) : (iblk1 V c 6 t : Vec Ideal S1x64 .f32) = (V c main_v3 : S1x64.Idx → EReal) := by
  have e0 := (idx_facts t).2.2.2.2.2.2.2.2.2.2.2.2.2.1
  have e1 := (idx_facts t).2.2.2.2.2.2.2.2.2.2.2.2.2.2.1
  funext y
  unfold iblk1
  rw [View.read_apply]
  show V c main_v3 _ = V c main_v3 _
  refine congrArg (V c main_v3) (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- A stored block is the restriction of the edge update over the whole arrays to the block's rows: stated over
    variables, the three moving blocks given by their rows. -/
theorem block_edge (EA S T : S1000000x64.Idx → EReal) (We W1 : S64x64.Idx → EReal) (Be B1 : S1x64.Idx → EReal) (r : ℕ)
    (x0 x1 x2 : Vec Ideal S4000x64 .f32)
    (h0 : ∀ (p : Fin 4000) (κ : Fin 64) (hp : r * 4000 + p.val < 1000000), x0 (ix2 p κ) = EA (ix2 ⟨r * 4000 + p.val, hp⟩ κ))
    (h1 : ∀ (p : Fin 4000) (κ : Fin 64) (hp : r * 4000 + p.val < 1000000), x1 (ix2 p κ) = S (ix2 ⟨r * 4000 + p.val, hp⟩ κ))
    (h2 : ∀ (p : Fin 4000) (κ : Fin 64) (hp : r * 4000 + p.val < 1000000), x2 (ix2 p κ) = T (ix2 ⟨r * 4000 + p.val, hp⟩ κ))
    (v : Vec Ideal S4000x64 .f32)
    (hv : ∀ (p : Fin 4000) (q : Fin 64), v (ix2 p q)
      = (∑ κ : Fin 64, act ((∑ l : Fin 64, x0 (ix2 p l) * We (ix2 κ l)) + Be (ix2 (0 : Fin 1) κ) + x1 (ix2 p κ) + x2 (ix2 p κ))
          * W1 (ix2 q κ)) + B1 (ix2 (0 : Fin 1) q))
    (j : S4000x64.Idx) (i : S1000000x64.Idx) (hi0 : (i 0).val = r * 4000 + (j 0).val) (hi1 : (i 1).val = (j 1).val) :
    v j = edge EA S T We (rowOf Be) W1 (rowOf B1) i := by
  obtain ⟨p, q, rfl⟩ : ∃ (p : Fin 4000) (q : Fin 64), j = ix2 p q := ⟨j 0, j 1, eq_ix2 j⟩
  obtain ⟨p', q', rfl⟩ : ∃ (p' : Fin 1000000) (q' : Fin 64), i = ix2 p' q' := ⟨i 0, i 1, eq_ix2 i⟩
  have hp' : p'.val = r * 4000 + p.val := hi0
  have hq' : q' = q := Fin.ext hi1
  subst hq'
  have hlt : r * 4000 + p.val < 1000000 := hp' ▸ p'.isLt
  obtain rfl : p' = ⟨r * 4000 + p.val, hlt⟩ := Fin.ext hp'
  rw [hv]
  unfold edge
  rw [lin_apply]
  refine congrArg₂ (· + ·) (Finset.sum_congr rfl fun κ _ => congrArg₂ (· * ·) (congrArg act ?_) rfl) rfl
  unfold pre
  rw [lin_apply, h1 p κ hlt, h2 p κ hlt]
  refine congrArg₂ (· + ·) (congrArg₂ (· + ·) (congrArg₂ (· + ·) (Finset.sum_congr rfl fun l _ => ?_) rfl) rfl) rfl
  rw [h0 p l hlt]

/-- What point t writes back is block t of the edge update over the arrays the region finds. -/
theorem flushed7_eq (c : Dev nD) (t : Fin cfg1.N) :
    (dat1 V c).flushed 7 t
      = ((cfg1.win 7).blk t).view.read (Elt Ideal) (edge (V c main_arg2 : S1000000x64.Idx → EReal) (V c main_v15 : S1000000x64.Idx → EReal)
          (V c main_v22 : S1000000x64.Idx → EReal) (V c main_arg3 : S64x64.Idx → EReal) (rowOf (V c main_v2 : S1x64.Idx → EReal))
          (V c main_arg9 : S64x64.Idx → EReal) (rowOf (V c main_v3 : S1x64.Idx → EReal))) := by
  have e70 := (idx_facts t).2.2.2.2.2.2.2.2.2.2.2.2.2.2.2.1
  have e71 := (idx_facts t).2.2.2.2.2.2.2.2.2.2.2.2.2.2.2.2
  show (cfg1.win 7).cut (grid1.coords t) ((dat1 V c).after 7 t) = _
  rw [after1_7]
  unfold out1_7
  rw [View.canon_unit_zero hz]
  simp only [View.ld_unit_zero (S := S4000x64) hz, View.ld_unit_zero (S := S64x64) hz, View.ld_unit_zero (S := S1x64) hz]
  funext j
  refine block_edge (V c main_arg2) (V c main_v15) (V c main_v22) (V c main_arg3) (V c main_arg9) (V c main_v2) (V c main_v3) t.val
    (iblk1 V c 0 t) (iblk1 V c 1 t) (iblk1 V c 2 t)
    (fun p κ hp => ea_apply V c t p κ hp) (fun p κ hp => s_apply V c t p κ hp) (fun p κ hp => t_apply V c t p κ hp)
    (k1_pay1 (F := Ideal) (iblk1 V c 0 t) (iblk1 V c 3 t) (iblk1 V c 4 t) (iblk1 V c 1 t) (iblk1 V c 2 t) (iblk1 V c 5 t) (iblk1 V c 6 t))
    (fun p q => by rw [pay1_apply, w3_eq, w4_eq, w5_eq, w6_eq]) j (((cfg1.win 7).blk t).view.emb j) ?_ ?_
  · show win1_7.index t (0 : Fin 2) * 4000 + 1 * (j 0).val = t.val * 4000 + (j 0).val
    rw [e70]; omega
  · show win1_7.index t (1 : Fin 2) * 64 + 1 * (j 1).val = (j 1).val
    rw [e71]; omega

/-- An index of the result array is in point t's block iff each coordinate is in the block's range. -/
theorem mem_blk7 (t : Fin cfg1.N) (i : S1000000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v23).slice (win1_7.rect t)).set ↔ _
  rw [View.set_slice_whole, Rect.mem_set_unit]
  exact Iff.rfl

/-- The 250 blocks cover the result array: row r is in the block of point r / 4000. -/
theorem cover7 (i : S1000000x64.Idx) : ∃ t : Fin cfg1.N, (cfg1.win 7).flush t = true ∧ i ∈ ((cfg1.win 7).blk t).view.set := by
  have hi0 : (i 0).val < 1000000 := (i 0).isLt
  have hi1 : (i 1).val < 64 := (i 1).isLt
  let t : Fin cfg1.N := ⟨(i 0).val / 4000, by show (i 0).val / 4000 < 250; omega⟩
  have e70 := (idx_facts t).2.2.2.2.2.2.2.2.2.2.2.2.2.2.2.1
  have e71 := (idx_facts t).2.2.2.2.2.2.2.2.2.2.2.2.2.2.2.2
  have ht : t.val = (i 0).val / 4000 := rfl
  refine ⟨t, flush1_7 t, ?_⟩
  rw [mem_blk7]
  intro a
  match a with
  | ⟨0, _⟩ => show win1_7.index t (0 : Fin 2) * 4000 ≤ (i 0).val ∧ (i 0).val < win1_7.index t (0 : Fin 2) * 4000 + 4000; rw [e70, ht]; omega
  | ⟨1, _⟩ => show win1_7.index t (1 : Fin 2) * 64 ≤ (i 1).val ∧ (i 1).val < win1_7.index t (1 : Fin 2) * 64 + 64; rw [e71]; omega

/-- The result after the region: the edge update over the arrays the region finds. -/
theorem final7 (c : Dev nD) :
    (dat1 V c).arrAt 7 cfg1.N = edge (V c main_arg2 : S1000000x64.Idx → EReal) (V c main_v15 : S1000000x64.Idx → EReal)
          (V c main_v22 : S1000000x64.Idx → EReal) (V c main_arg3 : S64x64.Idx → EReal) (rowOf (V c main_v2 : S1x64.Idx → EReal))
          (V c main_arg9 : S64x64.Idx → EReal) (rowOf (V c main_v3 : S1x64.Idx → EReal)) :=
  (dat1 V c).arrAt_eq_of_cover 7 _ (fun t _ => flushed7_eq V c t) cover7

end Cert.KernelIdeal.Region1

end
-- ==== Proof.KernelValue.lean ====
/-
  The kernel program's result as one function of its arguments.

  Between the two regions the host reads each row of the edge index, counts a negative entry from the end (adds 50000)
  and gathers the named rows of the two node projections; the same host operations, on the same words, that the reference
  applies to its own projections, so they are carried here as they are printed and never read at an index.
  Region 0 leaves the two projections (the linear layers of x), region 1 the edge update of the edge features and the two
  gathered arrays; the reshaped bias rows [1, 64] read as the bias vectors.
-/
import proofs.«171451_j81973745812097_1_alg».proof.Proof.Region0Value
import proofs.«171451_j81973745812097_1_alg».proof.Proof.Region1Value
import Idealize.ShloMosaic.Lib.StableHlo.Run

set_option maxRecDepth 16384

noncomputable section

namespace Cert.KernelIdeal.Result

open Cert.KernelIdeal Cert.KernelIdeal.Gen Cert.EdgeSpec
open Idealize.ShloMosaic Idealize.ShloMosaic.TcCoe Idealize.SL.Sem Idealize.ShloMosaic.ValueIdx Idealize.ShloMosaic.StableHlo
open Idealize.ShloMosaic.Pipeline (Dat)

/-- Row 0 of the edge index, a negative entry counted from the end, gathers rows of a node array. -/
def gatherSrc (X : S50000x64.Idx → EReal) (ei : S2x1000000.Idx → BitVec 32) : S1000000x64.Idx → EReal :=
  Host.gather gather_S50000x64_S1000000x1_S1000000x64_1_0_n_n_0_1_164 X
    (broadcastInDim S1000000x1 ![0] bcast_S1000000_S1000000x1_0
      (select (cmpi .slt (shapeCast S1000000 (extractStridedSlice S1x1000000 ![0, 0] ei slices_S2x1000000_S1x1000000_0_0) shapeCasts_S1x1000000_S1000000) (broadcastInDim S1000000 ![] bcast_S_S1000000 (constantI S_ 32 0#32)))
        (addi (shapeCast S1000000 (extractStridedSlice S1x1000000 ![0, 0] ei slices_S2x1000000_S1x1000000_0_0) shapeCasts_S1x1000000_S1000000) (broadcastInDim S1000000 ![] bcast_S_S1000000 (constantI S_ 32 50000#32)))
        (shapeCast S1000000 (extractStridedSlice S1x1000000 ![0, 0] ei slices_S2x1000000_S1x1000000_0_0) shapeCasts_S1x1000000_S1000000)))

/-- Row 1 of the edge index, likewise. -/
def gatherTgt (X : S50000x64.Idx → EReal) (ei : S2x1000000.Idx → BitVec 32) : S1000000x64.Idx → EReal :=
  Host.gather gather_S50000x64_S1000000x1_S1000000x64_1_0_n_n_0_1_164 X
    (broadcastInDim S1000000x1 ![0] bcast_S1000000_S1000000x1_0
      (select (cmpi .slt (shapeCast S1000000 (extractStridedSlice S1x1000000 ![1, 0] ei slices_S2x1000000_S1x1000000_1_0) shapeCasts_S1x1000000_S1000000) (broadcastInDim S1000000 ![] bcast_S_S1000000 (constantI S_ 32 0#32)))
        (addi (shapeCast S1000000 (extractStridedSlice S1x1000000 ![1, 0] ei slices_S2x1000000_S1x1000000_1_0) shapeCasts_S1x1000000_S1000000) (broadcastInDim S1000000 ![] bcast_S_S1000000 (constantI S_ 32 50000#32)))
        (shapeCast S1000000 (extractStridedSlice S1x1000000 ![1, 0] ei slices_S2x1000000_S1x1000000_1_0) shapeCasts_S1x1000000_S1000000)))

/-- A vector reshaped to one row, read back as a vector, is itself. -/
theorem rowOf_reshape (b : S64.Idx → EReal) : rowOf (shapeCast S1x64 b shapeCasts_S64_S1x64) = b := by
  funext j
  obtain ⟨q, rfl⟩ : ∃ q : Fin 64, j = ix1 q := ⟨j 0, eq_ix1 j⟩
  rw [rowOf_apply]
  exact shapeCast_a_1a_apply b _ 0 q

variable (m : (ℓ : Loc nD τ sig) → Buf (Elt Ideal) ℓ) (ρ : Dev nD → PrngReg)

/-! ## What region 0 finds -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_v0 (c : Dev nD) : V1 m ρ c main_v0 = shapeCast S1x64 (m ((c : Thread nD τ).loc main_arg6)) shapeCasts_S64_S1x64 := by
  show StableHlo.after hostOps0 (W0 m ρ c) (Proc.devRef .tc main_v0) = _
  after_results <;> rfl
theorem V1_v1 (c : Dev nD) : V1 m ρ c main_v1 = shapeCast S1x64 (m ((c : Thread nD τ).loc main_arg8)) shapeCasts_S64_S1x64 := by
  show StableHlo.after hostOps0 (W0 m ρ c) (Proc.devRef .tc main_v1) = _
  after_results <;> rfl

/-- The first node projection after region 0. -/
theorem xs_eq (c : Dev nD) : W2 m ρ c (Proc.devRef .tc main_v4_0)
    = lin (m ((c : Thread nD τ).loc main_arg0) : S50000x128.Idx → EReal) (m ((c : Thread nD τ).loc main_arg5) : S64x128.Idx → EReal)
        (m ((c : Thread nD τ).loc main_arg6) : S64.Idx → EReal) := by
  refine (W2_arr m ρ c 5).trans ?_
  rw [Region0.final5 (V1 m ρ) c, V1_arg0, V1_arg5, V1_v0, rowOf_reshape]

/-- The second node projection after region 0. -/
theorem xt_eq (c : Dev nD) : W2 m ρ c (Proc.devRef .tc main_v4_1)
    = lin (m ((c : Thread nD τ).loc main_arg0) : S50000x128.Idx → EReal) (m ((c : Thread nD τ).loc main_arg7) : S64x128.Idx → EReal)
        (m ((c : Thread nD τ).loc main_arg8) : S64.Idx → EReal) := by
  refine (W2_arr m ρ c 6).trans ?_
  rw [Region0.final6 (V1 m ρ) c, V1_arg0, V1_arg7, V1_v1, rowOf_reshape]

/-! ## What region 1 finds: region 0 writes only its two results, and the host operations between the regions only their own -/

theorem V3_arg2 (c : Dev nD) : V3 m ρ c main_arg2 = m ((c : Thread nD τ).loc main_arg2) := by
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results <;> rfl

theorem V3_arg3 (c : Dev nD) : V3 m ρ c main_arg3 = m ((c : Thread nD τ).loc main_arg3) := by
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results <;> rfl

theorem V3_arg9 (c : Dev nD) : V3 m ρ c main_arg9 = m ((c : Thread nD τ).loc main_arg9) := by
  show StableHlo.after hostOps1 (W2 m ρ c) (Proc.devRef .tc main_arg9) = _
  after_results
  refine (W2_of_ne m ρ c main_arg9 (by decide)).trans ?_
  show StableHlo.after hostOps0 (W0 m ρ c) (Proc.devRef .tc main_arg9) = _
  after_results <;> rfl

theorem V3_v2 (c : Dev nD) : V3 m ρ c main_v2 = shapeCast S1x64 (m ((c : Thread nD τ).loc main_arg4)) shapeCasts_S64_S1x64 := by
  show StableHlo.after hostOps1 (W2 m ρ c) (Proc.devRef .tc main_v2) = _
  after_results
  refine (W2_of_ne m ρ c main_v2 (by decide)).trans ?_
  show StableHlo.after hostOps0 (W0 m ρ c) (Proc.devRef .tc main_v2) = _
  after_results <;> rfl

theorem V3_v3 (c : Dev nD) : V3 m ρ c main_v3 = shapeCast S1x64 (m ((c : Thread nD τ).loc main_arg10)) shapeCasts_S64_S1x64 := by
  show StableHlo.after hostOps1 (W2 m ρ c) (Proc.devRef .tc main_v3) = _
  after_results
  refine (W2_of_ne m ρ c main_v3 (by decide)).trans ?_
  show StableHlo.after hostOps0 (W0 m ρ c) (Proc.devRef .tc main_v3) = _
  after_results <;> rfl

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl

/-- The first gathered array: the host's gather of the first projection by row 0 of the edge index. -/
theorem V3_v15 (c : Dev nD) : V3 m ρ c main_v15
    = gatherSrc (W2 m ρ c (Proc.devRef .tc main_v4_0)) (W2 m ρ c (Proc.devRef .tc main_arg1)) := by
  show StableHlo.after hostOps1 (W2 m ρ c) (Proc.devRef .tc main_v15) = _
  after_results <;> rfl

/-- The second gathered array: the host's gather of the second projection by row 1 of the edge index. -/
theorem V3_v22 (c : Dev nD) : V3 m ρ c main_v22
    = gatherTgt (W2 m ρ c (Proc.devRef .tc main_v4_1)) (W2 m ρ c (Proc.devRef .tc main_arg1)) := by
  show StableHlo.after hostOps1 (W2 m ρ c) (Proc.devRef .tc main_v22) = _
  after_results <;> rfl

/-! ## The result -/

/-- The result buffer after @main: the edge update of the edge features and the gathered rows of the two linear layers of x. -/
theorem result_eq (c : Dev nD) : W4 m ρ c (Proc.devRef .tc main_v23)
    = edge (m ((c : Thread nD τ).loc main_arg2) : S1000000x64.Idx → EReal)
        (gatherSrc (lin (m ((c : Thread nD τ).loc main_arg0) : S50000x128.Idx → EReal) (m ((c : Thread nD τ).loc main_arg5) : S64x128.Idx → EReal) (m ((c : Thread nD τ).loc main_arg6) : S64.Idx → EReal)) (m ((c : Thread nD τ).loc main_arg1)))
        (gatherTgt (lin (m ((c : Thread nD τ).loc main_arg0) : S50000x128.Idx → EReal) (m ((c : Thread nD τ).loc main_arg7) : S64x128.Idx → EReal) (m ((c : Thread nD τ).loc main_arg8) : S64.Idx → EReal)) (m ((c : Thread nD τ).loc main_arg1)))
        (m ((c : Thread nD τ).loc main_arg3) : S64x64.Idx → EReal) (m ((c : Thread nD τ).loc main_arg4) : S64.Idx → EReal)
        (m ((c : Thread nD τ).loc main_arg9) : S64x64.Idx → EReal) (m ((c : Thread nD τ).loc main_arg10) : S64.Idx → EReal) := by
  refine (W4_arr m ρ c 7).trans ?_
  rw [Region1.final7 (V3 m ρ) c, V3_arg2, V3_v15, V3_v22, V3_arg3, V3_v2, V3_arg9, V3_v3, xs_eq, xt_eq, W2_arg1,
    rowOf_reshape, rowOf_reshape]

end Cert.KernelIdeal.Result

end
-- ==== Proof.RefValue.lean ====
/-
  The reference program's result as one function of its arguments.

  The reference computes the two node projections, gathers their rows by the two rows of the edge index, adds them to the
  edge features' linear layer, applies the activation and the last linear layer, each as ONE whole-array host operation.
  A host matrix product against a transposed weight plus a bias broadcast down the rows is the linear layer read entry by
  entry; the activation's cube is written (v · v) · v here, which is v · (v · v).
-/
import proofs.«171451_j81973745812097_1_alg».proof.Proof.Gen.ReferenceIdeal.Run
import proofs.«171451_j81973745812097_1_alg».proof.Proof.LibPlainDot
import proofs.«171451_j81973745812097_1_alg».proof.Proof.Spec
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Value Cert.EdgeSpec
open Idealize.ShloMosaic Idealize.ShloMosaic.TcCoe Idealize.SL.Sem Idealize.ShloMosaic.ValueIdx

/-- Row 0 of the edge index, a negative entry counted from the end, gathers rows of a node array. -/
def gatherSrc (X : S50000x64.Idx → EReal) (ei : S2x1000000.Idx → BitVec 32) : S1000000x64.Idx → EReal :=
  Host.gather gather_S50000x64_S1000000x1_S1000000x64_1_0_n_n_0_1_164 X
    (broadcastInDim S1000000x1 ![0] bcast_S1000000_S1000000x1_0
      (select (cmpi .slt (shapeCast S1000000 (extractStridedSlice S1x1000000 ![0, 0] ei slices_S2x1000000_S1x1000000_0_0) shapeCasts_S1x1000000_S1000000) (broadcastInDim S1000000 ![] bcast_S_S1000000 (constantI S_ 32 0#32)))
        (addi (shapeCast S1000000 (extractStridedSlice S1x1000000 ![0, 0] ei slices_S2x1000000_S1x1000000_0_0) shapeCasts_S1x1000000_S1000000) (broadcastInDim S1000000 ![] bcast_S_S1000000 (constantI S_ 32 50000#32)))
        (shapeCast S1000000 (extractStridedSlice S1x1000000 ![0, 0] ei slices_S2x1000000_S1x1000000_0_0) shapeCasts_S1x1000000_S1000000)))

/-- Row 1 of the edge index, likewise. -/
def gatherTgt (X : S50000x64.Idx → EReal) (ei : S2x1000000.Idx → BitVec 32) : S1000000x64.Idx → EReal :=
  Host.gather gather_S50000x64_S1000000x1_S1000000x64_1_0_n_n_0_1_164 X
    (broadcastInDim S1000000x1 ![0] bcast_S1000000_S1000000x1_0
      (select (cmpi .slt (shapeCast S1000000 (extractStridedSlice S1x1000000 ![1, 0] ei slices_S2x1000000_S1x1000000_1_0) shapeCasts_S1x1000000_S1000000) (broadcastInDim S1000000 ![] bcast_S_S1000000 (constantI S_ 32 0#32)))
        (addi (shapeCast S1000000 (extractStridedSlice S1x1000000 ![1, 0] ei slices_S2x1000000_S1x1000000_1_0) shapeCasts_S1x1000000_S1000000) (broadcastInDim S1000000 ![] bcast_S_S1000000 (constantI S_ 32 50000#32)))
        (shapeCast S1000000 (extractStridedSlice S1x1000000 ![1, 0] ei slices_S2x1000000_S1x1000000_1_0) shapeCasts_S1x1000000_S1000000)))

theorem plain_node : Cert.PlainDot.Plain dot_S50000x128_S128x64_S50000x64_1_0_0_1_n_n := ⟨rfl, rfl, rfl, rfl, rfl, rfl⟩
theorem plain_edge : Cert.PlainDot.Plain dot_S1000000x64_S64x64_S1000000x64_1_0_0_1_n_n := ⟨rfl, rfl, rfl, rfl, rfl, rfl⟩

/-- A bias vector made a row and broadcast down 50000 rows reads, at (p, q), the vector at q. -/
theorem bias_node (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The same down 1000000 rows. -/
theorem bias_edge (b : FVec Ideal S64 .f32) (p : Fin 1000000) (q : Fin 64) :
    broadcastInDim S1000000x64 ![0, 1] bcast_S1x64_S1000000x64_0_1 (broadcastInDim S1x64 ![1] bcast_S64_S1x64_1 b) (ix2 p q) = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- A node projection as the host computes it. -/
def refNode (x : FVec Ideal S50000x128 .f32) (W : FVec Ideal S64x128 .f32) (b : FVec Ideal S64 .f32) : FVec Ideal S50000x64 .f32 :=
  addf (Host.dotGeneral dot_S50000x128_S128x64_S50000x64_1_0_0_1_n_n none x (transpose S128x64 [1, 0] W transposes_S64x128_S128x64_1_0))
    (broadcastInDim S50000x64 ![0, 1] bcast_S1x64_S50000x64_0_1 (broadcastInDim S1x64 ![1] bcast_S64_S1x64_1 b))

theorem refNode_eq (x : FVec Ideal S50000x128 .f32) (W : FVec Ideal S64x128 .f32) (b : FVec Ideal S64 .f32) :
    refNode x W b = lin x W b := by
  funext i
  obtain ⟨p, q, rfl⟩ : ∃ (p : Fin 50000) (q : Fin 64), i = ix2 p q := ⟨i 0, i 1, eq_ix2 i⟩
  rw [lin_apply]
  unfold refNode
  refine (addf_apply _ _ _).trans (congrArg₂ (· + ·) ?_ (bias_node b p q))
  refine (Cert.PlainDot.dotGeneral_apply plain_node rfl rfl none _ _ p q).trans ?_
  refine Finset.sum_congr rfl fun κ _ => congrArg₂ (· * ·) rfl ?_
  exact transpose_ix2_apply _ _ κ q

/-- A linear layer over the 1000000 edge rows as the host computes it. -/
def refLin (x : FVec Ideal S1000000x64 .f32) (W : FVec Ideal S64x64 .f32) (b : FVec Ideal S64 .f32) : FVec Ideal S1000000x64 .f32 :=
  addf (Host.dotGeneral dot_S1000000x64_S64x64_S1000000x64_1_0_0_1_n_n none x (transpose S64x64 [1, 0] W transposes_S64x64_S64x64_1_0))
    (broadcastInDim S1000000x64 ![0, 1] bcast_S1x64_S1000000x64_0_1 (broadcastInDim S1x64 ![1] bcast_S64_S1x64_1 b))

theorem refLin_eq (x : FVec Ideal S1000000x64 .f32) (W : FVec Ideal S64x64 .f32) (b : FVec Ideal S64 .f32) :
    refLin x W b = lin x W b := by
  funext i
  obtain ⟨p, q, rfl⟩ : ∃ (p : Fin 1000000) (q : Fin 64), i = ix2 p q := ⟨i 0, i 1, eq_ix2 i⟩
  rw [lin_apply]
  unfold refLin
  refine (addf_apply _ _ _).trans (congrArg₂ (· + ·) ?_ (bias_edge b p q))
  refine (Cert.PlainDot.dotGeneral_apply plain_edge rfl rfl none _ _ p q).trans ?_
  refine Finset.sum_congr rfl fun κ _ => congrArg₂ (· * ·) rfl ?_
  exact transpose_ix2_apply _ _ κ q

/-- The activation as the host computes it over the whole array. -/
def refAct (H : FVec Ideal S1000000x64 .f32) : FVec Ideal S1000000x64 .f32 :=
  mulf H (mulf (broadcastInDim S1000000x64 ![] bcast_S_S1000000x64 (constant S_ .f32 0x3F000000#32))
    (addf (broadcastInDim S1000000x64 ![] bcast_S_S1000000x64 (constant S_ .f32 0x3F800000#32))
      (Host.tanh (mulf (broadcastInDim S1000000x64 ![] bcast_S_S1000000x64 (constant S_ .f32 0x3F4C422A#32))
        (addf H (mulf (broadcastInDim S1000000x64 ![] bcast_S_S1000000x64 (constant S_ .f32 0x3D372713#32)) (mulf (mulf H H) H)))))))

theorem refAct_apply (H : FVec Ideal S1000000x64 .f32) (i : S1000000x64.Idx) : refAct H i = act (H i) :=
  act_cube_left (H i)

/-- The reference's result term, folded: the last linear layer of the activation of the sum of the edge features' linear
    layer and the two gathered node projections. -/
theorem res_folded (m : (ℓ : Loc nD τ sig) → Buf (Elt Ideal) ℓ) (c : Dev nD) :
    res_main_v52 (F := Ideal) m c
      = refLin (refAct (addf (addf (refLin (m ((c.tc : Thread nD τ).loc main_arg2)) (m ((c.tc : Thread nD τ).loc main_arg3)) (m ((c.tc : Thread nD τ).loc main_arg4)))
            (gatherSrc (refNode (m ((c.tc : Thread nD τ).loc main_arg0)) (m ((c.tc : Thread nD τ).loc main_arg5)) (m ((c.tc : Thread nD τ).loc main_arg6))) (m ((c.tc : Thread nD τ).loc main_arg1))))
            (gatherTgt (refNode (m ((c.tc : Thread nD τ).loc main_arg0)) (m ((c.tc : Thread nD τ).loc main_arg7)) (m ((c.tc : Thread nD τ).loc main_arg8))) (m ((c.tc : Thread nD τ).loc main_arg1)))))
          (m ((c.tc : Thread nD τ).loc main_arg9)) (m ((c.tc : Thread nD τ).loc main_arg10)) := by
  unfold res_main_v52
  rfl

/-- The reference's result is the edge update of the edge features and the gathered rows of the two linear layers of x. -/
theorem res_eq (m : (ℓ : Loc nD τ sig) → Buf (Elt Ideal) ℓ) (c : Dev nD) :
    res_main_v52 (F := Ideal) m c
      = edge (m ((c.tc : Thread nD τ).loc main_arg2) : S1000000x64.Idx → EReal)
          (gatherSrc (lin (m ((c.tc : Thread nD τ).loc main_arg0) : S50000x128.Idx → EReal) (m ((c.tc : Thread nD τ).loc main_arg5) : S64x128.Idx → EReal) (m ((c.tc : Thread nD τ).loc main_arg6) : S64.Idx → EReal)) (m ((c.tc : Thread nD τ).loc main_arg1)))
          (gatherTgt (lin (m ((c.tc : Thread nD τ).loc main_arg0) : S50000x128.Idx → EReal) (m ((c.tc : Thread nD τ).loc main_arg7) : S64x128.Idx → EReal) (m ((c.tc : Thread nD τ).loc main_arg8) : S64.Idx → EReal)) (m ((c.tc : Thread nD τ).loc main_arg1)))
          (m ((c.tc : Thread nD τ).loc main_arg3) : S64x64.Idx → EReal) (m ((c.tc : Thread nD τ).loc main_arg4) : S64.Idx → EReal)
          (m ((c.tc : Thread nD τ).loc main_arg9) : S64x64.Idx → EReal) (m ((c.tc : Thread nD τ).loc main_arg10) : S64.Idx → EReal) := by
  rw [res_folded, refLin_eq, refLin_eq, refNode_eq, refNode_eq]
  unfold edge
  refine congrArg (fun h => lin h _ _) (funext fun i => ?_)
  rw [refAct_apply]
  rfl

end Cert.ReferenceIdeal.RefValue

end
-- ==== Proof.lean ====
/-
  The certificate of the edge update kernel against its reference.

  Both programs compute, for every edge e and output feature j,
    out (e, j) = ∑ κ, act (h (e, κ)) · W1 (j, κ) + b1 j,
    h (e, κ)   = ∑ l, ea (e, l) · We (κ, l) + be κ + xs (src e, κ) + xt (tgt e, κ),
  where xs and xt are the two linear layers of the node features x and act is the tanh form of the Gaussian error linear
  unit. The kernel computes xs and xt block by block in a first region, gathers their rows on the host, and computes the
  rest block by block in a second region; the reference does each step as one whole-array host operation. At the exact
  values the casts to bf16 are the identity, a product into a zero accumulator is the sum of products, the blocks of rows
  tile the arrays, and the gathers are the same host operations on both sides, so the two results are one function of
  the arguments. The only algebraic law used is the commutativity of the product of extended reals (the cube inside the
  activation is associated differently on the two sides); no finiteness is needed.
-/
import proofs.«171451_j81973745812097_1_alg».proof.Defs
import proofs.«171451_j81973745812097_1_alg».proof.Proof.Gen.Kernel
import proofs.«171451_j81973745812097_1_alg».proof.Proof.Gen.Kernel.Frame
import proofs.«171451_j81973745812097_1_alg».proof.Proof.Gen.KernelIdeal
import proofs.«171451_j81973745812097_1_alg».proof.Proof.Gen.KernelIdeal.Frame
import proofs.«171451_j81973745812097_1_alg».proof.Proof.Gen.ReferenceIdeal
import proofs.«171451_j81973745812097_1_alg».proof.Proof.Gen.ReferenceIdeal.Run
import proofs.«171451_j81973745812097_1_alg».proof.Proof.Gen.Pre_finite_inputs
import proofs.«171451_j81973745812097_1_alg».proof.Proof.KernelRun
import proofs.«171451_j81973745812097_1_alg».proof.Proof.KernelValue
import proofs.«171451_j81973745812097_1_alg».proof.Proof.RefValue
import Idealize.ShloMosaic.Adequacy
import Idealize.ShloMosaic.Init

noncomputable section

namespace Cert.Proof

open Idealize.ShloMosaic Idealize.ShloMosaic.TcCoe Idealize.SL.Sem Cert.EdgeSpec

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the exact values: no operation was rewritten, so there is nothing to preserve. -/
theorem preserves : Cert.preserves_Kernel_KernelIdeal := trivial

/-- The two programs gather with the same host operations: the same dimension numbers, slices, comparisons and selects. -/
theorem gatherSrc_agree (X : Cert.KernelIdeal.S50000x64.Idx → EReal) (ei : Cert.KernelIdeal.S2x1000000.Idx → BitVec 32) :
    Cert.ReferenceIdeal.RefValue.gatherSrc X ei = Cert.KernelIdeal.Result.gatherSrc X ei := rfl

theorem gatherTgt_agree (X : Cert.KernelIdeal.S50000x64.Idx → EReal) (ei : Cert.KernelIdeal.S2x1000000.Idx → BitVec 32) :
    Cert.ReferenceIdeal.RefValue.gatherTgt X ei = Cert.KernelIdeal.Result.gatherTgt X ei := rfl

/-- From memories that agree on the arguments both programs end with the edge update of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v23),
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine ((Cert.ReferenceIdeal.RefValue.res_eq m' c).trans ?_).trans (Cert.KernelIdeal.Result.result_eq m ρ c).symm
  rw [h0, h1, h2, h3, h4, h5, h6, h7, h8, h9, h10, gatherSrc_agree, gatherTgt_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
